-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x2048 : Shape := ⟨2, ![16384, 2048]⟩
abbrev S16384x1 : Shape := ⟨2, ![16384, 1]⟩
abbrev S1024x2048 : Shape := ⟨2, ![1024, 2048]⟩
abbrev S1024x1 : Shape := ⟨2, ![1024, 1]⟩
abbrev S1024x512 : Shape := ⟨2, ![1024, 512]⟩
abbrev S1024 : Shape := ⟨1, ![1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x1, .f32⟩
  | .local _ .vmem, ⟨5, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v1 : BitVec 32 := Scalar.muli c0_i32 c512_i32
  v1
def k0_off1 (c0_i32 : BitVec 32) : Fin 2 → Nat :=
  let c0 : Index := 0#32
  let c512_i32 : BitVec 32 := 512#32
  let v1 : BitVec 32 := Scalar.muli c0_i32 c512_i32
  let v2 : BitVec 32 := v1
  let v3 : Index := Scalar.indexCast v2
  ![0, v3.toNat]
def k0_mult2 : BitVec 32 :=
  let c1_i32 : BitVec 32 := 1#32
  let c512_i32_2 : BitVec 32 := 512#32
  let v12 : BitVec 32 := Scalar.muli c1_i32 c512_i32_2
  v12
def k0_mult3 : BitVec 32 :=
  let c2_i32 : BitVec 32 := 2#32
  let c512_i32_6 : BitVec 32 := 512#32
  let v23 : BitVec 32 := Scalar.muli c2_i32 c512_i32_6
  v23
def k0_mult4 : BitVec 32 :=
  let c3_i32 : BitVec 32 := 3#32
  let c512_i32_10 : BitVec 32 := 512#32
  let v34 : BitVec 32 := Scalar.muli c3_i32 c512_i32_10
  v34
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1024x512 : 0 < S1024x512.numel
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  hrank0 : 0 < grid0.rank
  k0_mult1_dvd : 512 ∣ k0_mult1.toNat
  k0_off1_inb : ∀ (r : Fin 4), ∀ a, (k0_off1 (BitVec.ofNat 32 r.val)) a + S1024x512.size a ≤ S1024x2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩
abbrev S16384x1 : Shape := ⟨2, ![16384, 1]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)

variable [Facts₀]

class Facts : Prop extends Facts₀ where

variable [Facts]
-- ==== Proof.RowForm.lean ====
/-
  The function both programs compute, and the one law that joins them.

  For arrays `v`, `d` of shape [16384, 2048] over the extended reals, the result at row `r` is
  `∑ k < 2048, (d[r,k] · v[r,k]) · v[r,k]`, a [16384, 1] column. The reference takes the sum over all 2048
  columns at once; the kernel takes it in four chunks of 512 columns, adding each chunk's sum onto an
  accumulator that starts at zero. The two agree because the chunks `512·c + j` (`c < 4`, `j < 512`) list
  every column exactly once, and addition on the extended reals is commutative and associative with
  unit `0` — no finiteness is needed: nothing is cancelled and nothing is distributed.
-/
import Idealize.ShloMosaic.PureOps.Ideal.Laws
import Idealize.ShloMosaic.Lib.ValueIdx

noncomputable section

open scoped BigOperators

namespace Cert.RowForm

open Idealize.ShloMosaic Idealize.ShloMosaic.ValueIdx

/-- Column `j` of chunk `c`: chunk `c` holds columns `512·c … 512·c + 511`. -/
def col (c : Fin 4) (j : Fin 512) : Fin 2048 := ⟨512 * c.val + j.val, by omega⟩

@[simp] theorem col_val (c : Fin 4) (j : Fin 512) : (col c j).val = 512 * c.val + j.val := rfl

/-- The four chunks tile the columns: (chunk, column inside it) ↔ column, by quotient and remainder. -/
def colEquiv : Fin 4 × Fin 512 ≃ Fin 2048 where
  toFun p := col p.1 p.2
  invFun k := (⟨k.val / 512, by omega⟩, ⟨k.val % 512, by omega⟩)
  left_inv p := Prod.ext (Fin.ext (by show (512 * p.1.val + p.2.val) / 512 = p.1.val; omega))
    (Fin.ext (by show (512 * p.1.val + p.2.val) % 512 = p.2.val; omega))
  right_inv k := Fin.ext (by show 512 * (k.val / 512) + k.val % 512 = k.val; omega)

/-- A sum over all columns is the sum over the chunks of each chunk's sum. -/
theorem sum_cols (f : Fin 2048 → EReal) : ∑ k : Fin 2048, f k = ∑ c : Fin 4, ∑ j : Fin 512, f (col c j) := by
  rw [← colEquiv.sum_comp f, Fintype.sum_prod_type]
  rfl

/-- THE LAW: the four chunk sums added one after the other onto zero are the whole row's sum. -/
theorem chunks_onto_zero (f : Fin 2048 → EReal) :
    (0 : EReal) + (∑ j : Fin 512, f (col 0 j)) + (∑ j : Fin 512, f (col 1 j)) + (∑ j : Fin 512, f (col 2 j))
      + (∑ j : Fin 512, f (col 3 j)) = ∑ k : Fin 2048, f k := by
  rw [sum_cols, Fin.sum_univ_four, zero_add]

/-- The result: row `r`'s weighted sum of squares `∑ k, (d[r,k] · v[r,k]) · v[r,k]`, as a [16384, 1] column. -/
def rowForm (v d : (⟨2, ![16384, 2048]⟩ : Shape).Idx → EReal) : (⟨2, ![16384, 1]⟩ : Shape).Idx → EReal :=
  fun i => ∑ k : Fin 2048, d (ix2 (i 0) k) * v (ix2 (i 0) k) * v (ix2 (i 0) k)

end Cert.RowForm

end
-- ==== Proof.ChunkSum.lean ====
/-
  One chunk of the kernel's row sum, read at a row.

  The kernel's block is [1024, 2048]; it loads the block's columns `512·c … 512·c + 511` as a [1024, 512]
  chunk (chunk `c` of four), forms `(d · v) · v` entry by entry, sums each row of the chunk over its 512
  lanes, and reshapes the 1024 row sums into a [1024, 1] column. Two facts are recorded here over plain
  arrays: what a load through a chunk's rectangle reads at `(p, j)` — the block's entry `(p, 512·c + j)` —
  and what the reshaped lane sum holds at row `p` — `∑ j < 512, (B[p,j] · A[p,j]) · A[p,j]`.
-/
import Idealize.ShloMosaic.PureOps.Ideal.Laws
import Idealize.ShloMosaic.Lib.ValueIdx
import Idealize.ShloMosaic.Lib.Pipeline.Value
import proofs.«422544_j63032940036672_3_alg».proof.Proof.RowForm

noncomputable section

open scoped BigOperators

namespace Cert.RowForm

open Idealize.ShloMosaic Idealize.ShloMosaic.ValueIdx

/-- A block of 1024 rows, a chunk of 512 of its columns, the rows' sums, and those sums as a column. -/
abbrev SBlk : Shape := ⟨2, ![1024, 2048]⟩
abbrev SChunk : Shape := ⟨2, ![1024, 512]⟩
abbrev SRows : Shape := ⟨1, ![1024]⟩
abbrev SCol : Shape := ⟨2, ![1024, 1]⟩

/-- A load of chunk `c` (rows whole, columns from `o = 512·c`) reads at `(p, j)` the block's entry `(p, 512·c + j)`. -/
theorem ld_chunk (X : SBlk.Idx → Elt Ideal .f32) (o : Nat) (c : Fin 4) (ho : o = 512 * c.val)
    (inb : ∀ a, (![0, o] : Fin 2 → Nat) a + (![1024, 512] : Fin 2 → Nat) a ≤ SBlk.size a) (p : Fin 1024) (j : Fin 512) :
    View.ld (Val := Elt Ideal) (e' := .f32) X (Rect.unit (s := SBlk) ![0, o] ![1024, 512] inb) (ix2 p j) = X (ix2 p (col c j)) := by
  subst ho
  show X ((Rect.unit (s := SBlk) ![0, 512 * c.val] ![1024, 512] inb).idx (ix2 p j)) = _
  refine congrArg X (funext fun a => Fin.ext ?_)
  match a with
  | ⟨0, _⟩ => show 0 + 1 * p.val = p.val; omega
  | ⟨1, _⟩ => show 512 * c.val + 1 * j.val = 512 * c.val + j.val; omega

/-- The lane sum of `(B · A) · A` over a chunk's 512 columns, reshaped to a column, holds at row `y 0` the sum
    `∑ j, (B[y 0, j] · A[y 0, j]) · A[y 0, j]`. -/
theorem lane_sum_col (A B : FVec Ideal SChunk .f32) (h : SChunk.Reduces [1] SRows) (hφ : FKind.Formats .f32)
    (hacc : (0x00000000#32 : BitVec 32) = 0x00000000#32) (hc : SRows.ShapeCasts SCol) (y : SCol.Idx) :
    shapeCast SCol (multiReduction .add [1] SRows (mulf (mulf B A) A) 0x00000000#32 h hφ hacc) hc y
      = ∑ j : Fin 512, B (ix2 (y 0) j) * A (ix2 (y 0) j) * A (ix2 (y 0) j) := by
  have hrow : (SRows.rowMajor (ix1 (y 0))).val = (SCol.rowMajor y).val := by
    rw [Shape.rowMajor_val_one, Shape.rowMajor_val_two]
    have h1 : (y 1).val < 1 := (y 1).isLt
    show (y 0).val = (y 0).val * 1 + (y 1).val
    omega
  refine (shapeCast_apply _ hc y (ix1 (y 0)) hrow).trans ?_
  refine (Ideal.multiReduction_add_single (mulf (mulf B A) A) 0x00000000#32 h hφ hacc (ix1 (y 0))).trans ?_
  refine Finset.sum_congr rfl fun j _ => ?_
  have e : h.lift (ix1 (y 0)) j = ix2 (y 0) j :=
    funext fun a => Fin.ext (by match a with | ⟨0, _⟩ => rfl | ⟨1, _⟩ => rfl)
  rw [e]
  rfl

/-- The row form of one block: row `p` of a [1024, 2048] block pair gives `∑ k, (d[p,k] · v[p,k]) · v[p,k]`. -/
def blockForm (v d : SBlk.Idx → EReal) : SCol.Idx → EReal :=
  fun y => ∑ k : Fin 2048, d (ix2 (y 0) k) * v (ix2 (y 0) k) * v (ix2 (y 0) k)

end Cert.RowForm

end
-- ==== Proof.BlockValue.lean ====
/-
  What the kernel leaves in its output block at a grid point.

  At a point the body holds a [1024, 2048] block `v` of the first argument and a block `d` of the second.
  It stores ONE value through the whole [1024, 1] output block: an accumulator that starts at zero and
  receives, chunk after chunk, the lane sums of `(d · v) · v` over columns `0…511`, `512…1023`,
  `1024…1535`, `1536…2047`. At row `p` that value is `0 + S₀ + S₁ + S₂ + S₃` with
  `S_c = ∑ j < 512, (d[p, 512c + j] · v[p, 512c + j]) · v[p, 512c + j]`, which is the whole row's sum
  `∑ k < 2048, (d[p,k] · v[p,k]) · v[p,k]`: the four chunks list each column once.
-/
import proofs.«422544_j63032940036672_3_alg».proof.Proof.Gen.KernelIdeal.Value
import proofs.«422544_j63032940036672_3_alg».proof.Proof.ChunkSum

set_option maxRecDepth 16384

noncomputable section

open scoped BigOperators

namespace Cert.KernelBlock

open Cert.KernelIdeal Cert.KernelIdeal.Gen Cert.RowForm
open Idealize.ShloMosaic Idealize.ShloMosaic.TcCoe Idealize.ShloMosaic.Tactic Idealize.ShloMosaic.ValueIdx Idealize.SL.Sem

/-- The output block's one store goes through the rectangle at offsets zero. -/
theorem hz : (![0, 0] : Fin 2 → Nat) = fun _ => 0 :=
  funext fun a => by match a with | ⟨0, _⟩ => rfl | ⟨1, _⟩ => rfl

/-- The stored value at row `y 0`: the accumulator after the four chunks is the row's whole sum. -/
theorem payload_apply (x0 x1 : Vec Ideal S1024x2048 .f32)
    (h0 : ∀ a, (![0, 0] : Fin 2 → Nat) a + (![1024, 512] : Fin 2 → Nat) a ≤ S1024x2048.size a)
    (h1 : ∀ a, (![0, 512] : Fin 2 → Nat) a + (![1024, 512] : Fin 2 → Nat) a ≤ S1024x2048.size a)
    (h2 : ∀ a, (![0, 1024] : Fin 2 → Nat) a + (![1024, 512] : Fin 2 → Nat) a ≤ S1024x2048.size a)
    (h3 : ∀ a, (![0, 1536] : Fin 2 → Nat) a + (![1024, 512] : Fin 2 → Nat) a ≤ S1024x2048.size a)
    (y : S1024x1.Idx) :
    k0_pay1 (F := Ideal)
      (k0_pay2 (View.ld x0 (Rect.unit ![0, 0] ![1024, 512] h0)) (View.ld x1 (Rect.unit ![0, 0] ![1024, 512] h0))
        (View.ld x0 (Rect.unit ![0, 512] ![1024, 512] h1)) (View.ld x1 (Rect.unit ![0, 512] ![1024, 512] h1))
        (View.ld x0 (Rect.unit ![0, 1024] ![1024, 512] h2)) (View.ld x1 (Rect.unit ![0, 1024] ![1024, 512] h2)))
      (View.ld x0 (Rect.unit ![0, 1536] ![1024, 512] h3)) (View.ld x1 (Rect.unit ![0, 1536] ![1024, 512] h3)) y
      = blockForm x0 x1 y := by
  unfold k0_pay1 k0_pay2
  simp only [addf_apply, broadcast_apply]
  rw [lane_sum_col, lane_sum_col, lane_sum_col, lane_sum_col]
  -- a chunk's load at `(y 0, j)` is the block's entry at `(y 0, 512·c + j)`
  have e : ∀ (X : SBlk.Idx → Elt Ideal .f32) (o : Nat) (c : Fin 4) (ho : o = 512 * c.val)
      (hb : ∀ a, (![0, o] : Fin 2 → Nat) a + (![1024, 512] : Fin 2 → Nat) a ≤ SBlk.size a) (j : Fin 512),
      View.ld (Val := Elt Ideal) (e' := .f32) X (Rect.unit (s := SBlk) ![0, o] ![1024, 512] hb) (ix2 (y 0) j)
        = X (ix2 (y 0) (col c j)) :=
    fun X o c ho hb j => ld_chunk X o c ho hb (y 0) j
  simp only [e x0 0 0 rfl h0, e x1 0 0 rfl h0, e x0 512 1 rfl h1, e x1 512 1 rfl h1,
    e x0 1024 2 rfl h2, e x1 1024 2 rfl h2, e x0 1536 3 rfl h3, e x1 1536 3 rfl h3,
    Ideal.ofBits_def, Ideal.ofBits_zero_f32]
  exact chunks_onto_zero (fun k => x1 (ix2 (y 0) k) * x0 (ix2 (y 0) k) * x0 (ix2 (y 0) k))

/-- WHAT THE BODY LEAVES in the output block, on any staging memrefs, from input blocks `x0` (of the first
    argument) and `x1` (of the second): the block's row form. The run's one piece covers the block, its
    payload is read off the loads of the two input blocks, and `payload_apply` reads it row by row. -/
theorem block_eq (c : Dev nD) (i : grid0.Coords) (arg1 : Memref sig .tc .vmem S1024x2048 .f32) (harg1 : arg1.IsWhole)
    (arg2 : Memref sig .tc .vmem S1024x2048 .f32) (harg2 : arg2.IsWhole) (arg3 : Memref sig .tc .vmem S1024x1 .f32)
    (harg3 : arg3.IsWhole) (x0 x1 : Vec Ideal S1024x2048 .f32) :
    out0_A_2 (F := Ideal) c i arg1 harg1 arg2 harg2 arg3 harg3 x0 x1 = blockForm x0 x1 := by
  unfold out0_A_2
  rw [View.read_writes_eq_canon _ _ _ (cover0_A_2 c i arg1 harg1 arg2 harg2 arg3 harg3 x0 x1)]
  unfold kernelRun0_A
  dsimp only
  sl_unfold_words
  rw [View.canon_unit_zero (S := S1024x1) hz]
  simp only [View.readAt_eq_ld, harg1.read_unread, harg2.read_unread]
  funext y
  exact payload_apply x0 x1 _ _ _ _ y

end Cert.KernelBlock

end
-- ==== Proof.ArrayValue.lean ====
/-
  The kernel's result array is the row form of its two arguments.

  The grid has 16 points; at point `t` each input window holds rows `1024·t … 1024·t + 1023` of its
  argument (all 2048 columns), and the output window writes back rows `1024·t … 1024·t + 1023` of the
  [16384, 1] result. What point `t` writes back is the row form of its two input blocks, and row `p` of
  block `t` is row `1024·t + p` of the argument, so the write-back is block `t` of the row form of the
  whole arguments. Row `r` of the result lies in the block of point `r / 1024`, so the sixteen blocks cover
  the array and it ends holding the row form everywhere.
-/
import proofs.«422544_j63032940036672_3_alg».proof.Proof.Gen.KernelIdeal.Value
import proofs.«422544_j63032940036672_3_alg».proof.Proof.BlockValue

set_option maxRecDepth 16384

noncomputable section

open scoped BigOperators

namespace Cert.KernelArray

open Cert.KernelIdeal Cert.KernelIdeal.Gen Cert.KernelIdeal.Value Cert.RowForm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three index maps, decided over the sixteen points: every window's block at point `t` is block `(t, 0)`. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (0 : Fin 2) ≤ 15 ∧ win0_2.index t (1 : Fin 2) = 0 :=
  (by decide +kernel : ∀ t : Fin grid0.N, _)

/-- Every one of the sixteen row blocks is some point's. -/
theorem idx_onto : ∀ q : Fin 16, ∃ t : Fin cfg0.N, win0_2.index t = ![q.val, 0] :=
  (by decide +kernel : ∀ q : Fin 16, ∃ t : Fin grid0.N, win0_2.index t = ![q.val, 0])

/-- WHAT POINT `t` WRITES BACK is block `t` of the row form of the two argument arrays. -/
theorem flushed_eq (c : Dev nD) (t : Fin cfg0.N) :
    (dats m 0 c).flushed 2 t = ((cfg0.win 2).blk t).view.read (Elt Ideal)
      (rowForm (m ((c : Thread nD τ).loc main_arg0)) (m ((c : Thread nD τ).loc main_arg1))) := by
  rw [flushed2_A, Cert.KernelBlock.block_eq c (grid0.coords t) (ms0_0 t) (hs0_0 t) (ms0_1 t) (hs0_1 t) (ms0_2 t) (hs0_2 t)
    (iblk m c 0 t) (iblk m c 1 t)]
  obtain ⟨e0, e1, e2, e3, e4, e5⟩ := idx_facts t
  funext j
  show blockForm (iblk m c 0 t) (iblk m c 1 t) j
    = rowForm (m ((c : Thread nD τ).loc main_arg0)) (m ((c : Thread nD τ).loc main_arg1)) (((cfg0.win 2).blk t).view.emb j)
  unfold blockForm rowForm
  refine Finset.sum_congr rfl fun k _ => ?_
  -- row `j 0` of point `t`'s input block is row `1024·t + j 0` of the argument, the row the output block's entry sits in
  have h0 : iblk m c 0 t (ix2 (j 0) k)
      = m ((c : Thread nD τ).loc main_arg0) (ix2 ((((cfg0.win 2).blk t).view.emb j) 0) k) := by
    show V m c main_arg0 (((cfg0.win 0).blk t).view.emb (ix2 (j 0) k))
      = V m c main_arg0 (ix2 ((((cfg0.win 2).blk t).view.emb j) 0) k)
    refine congrArg _ (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2048 + 1 * k.val = k.val; omega
  have h1 : iblk m c 1 t (ix2 (j 0) k)
      = m ((c : Thread nD τ).loc main_arg1) (ix2 ((((cfg0.win 2).blk t).view.emb j) 0) k) := by
    show V m c main_arg1 (((cfg0.win 1).blk t).view.emb (ix2 (j 0) k))
      = V m c main_arg1 (ix2 ((((cfg0.win 2).blk t).view.emb j) 0) k)
    refine congrArg _ (funext fun a => Fin.ext ?_)
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 2048 + 1 * k.val = k.val; omega
  exact congrArg₂ (· * ·) (congrArg₂ (· * ·) h1 h0) h0

/-- An index of the result is in point `t`'s block iff each coordinate is in the block's range on its axis. -/
theorem mem_blk (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0).slice (win0_2.rect t)).set ↔ _
  rw [View.set_slice_whole, Rect.mem_set_unit]
  exact Iff.rfl

/-- THE COVER: row `r` of the result lies in the block of the point whose block index is `r / 1024`. -/
theorem cover (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- THE ARRAY after the run is the row form of the two argument arrays. -/
theorem final (c : Dev nD) : (dats m 0 c).arrAt 2 cfg0.N
    = rowForm (m ((c : Thread nD τ).loc main_arg0)) (m ((c : Thread nD τ).loc main_arg1)) :=
  (dats m 0 c).arrAt_eq_of_cover 2 _ (fun t _ => flushed_eq m c t) cover

/-- The kernel's run: every weakly fair execution ends with the result array at the row form of the arguments,
    the arguments unchanged. -/
theorem run : θ_run defs (onTc (τ := τ) (main (F := Ideal))) ⟨m, fun _ => 0, ρ⟩ fun r => ∀ c : Dev nD,
      r.2.mem ((c : Thread nD τ).loc main_v0)
        = rowForm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelArray

end
-- ==== Proof.RefRowForm.lean ====
/-
  The reference's result is the row form.

  The reference multiplies `d · v`, then `· v`, sums each row over its 2048 columns starting from the
  constant `0`, and lays the 16384 row sums out as a [16384, 1] column. Read at a row `r`: the column's
  entry is the row-sum array's entry `r`, which is `0 + ∑ k, (d[r,k] · v[r,k]) · v[r,k]`; the leading `0`
  is the unit of addition.
-/
import proofs.«422544_j63032940036672_3_alg».proof.Proof.Gen.ReferenceIdeal.Read
import proofs.«422544_j63032940036672_3_alg».proof.Proof.RowForm

noncomputable section

open scoped BigOperators

namespace Cert.RefRowForm

open Cert.ReferenceIdeal Cert.ReferenceIdeal.Gen Cert.ReferenceIdeal.Read
open Idealize.ShloMosaic Idealize.ShloMosaic.ValueIdx

/-- Entry `k` of row `r` of the product array, reached through the column's row and the sum's column, is
    the entry at `(r, k)`. -/
theorem idx_row_col (i : S16384x1.Idx) (k : Fin 2048) : idx_main_v2 (idx_main_v3 i) k = ix2 (i 0) k :=
  funext fun a => Fin.ext (by match a with | ⟨0, _⟩ => rfl | ⟨1, _⟩ => rfl)

/-- The reference's last stage, at `Ideal`, is the row form of its two arguments (`v` the first, `d` the second). -/
theorem ref_eq (v d : (⟨S16384x2048, .f32⟩ : BufTy).Contents (Elt Ideal)) :
    val_main_v3 (F := Ideal) v d = Cert.RowForm.rowForm v d := by
  funext i
  rw [val_main_v3_apply, val_main_v2_apply]
  simp only [val_main_v1_apply, val_main_v0_apply, val_main_cst_apply, Ideal.mulf_def, Ideal.ofBits_def,
    Ideal.ofBits_zero_f32, zero_add, idx_row_col]
  rfl

end Cert.RefRowForm

end
-- ==== Proof.lean ====
/-
  The kernel computes, for each of 16384 rows, the diagonal quadratic form `∑ k < 2048, (d[r,k] · v[r,k]) · v[r,k]`
  of the row of `v` weighted by the row of `d`, as a [16384, 1] column; so does the reference.

  The reference sums each row over all 2048 columns at once, from the constant `0`. The kernel walks the rows
  in sixteen blocks of 1024; inside a block it takes the row sum in four chunks of 512 columns, adding each
  chunk's lane sum onto an accumulator that starts at `0`, and writes the block's 1024 sums back. Over the
  extended reals the two are the same function: both multiply in the order `(d · v) · v`, the four chunks
  list every column once, and addition is commutative and associative with unit `0` (Proof/RowForm.lean) —
  so the precondition's finiteness is never used. Proof/ChunkSum.lean reads one chunk, Proof/BlockValue.lean
  one block, Proof/ArrayValue.lean the whole result array; Proof/RefRowForm.lean reads the reference.

  The three frames are the generated ones (the reference's is its run with the result dropped); the kernel's
  idealization rewrote nothing, so `preserves` is `True`.
-/
import proofs.«422544_j63032940036672_3_alg».proof.Defs
import proofs.«422544_j63032940036672_3_alg».proof.Proof.Gen.Kernel
import proofs.«422544_j63032940036672_3_alg».proof.Proof.Gen.Kernel.Skeleton
import proofs.«422544_j63032940036672_3_alg».proof.Proof.Gen.Kernel.Launch
import proofs.«422544_j63032940036672_3_alg».proof.Proof.Gen.Kernel.Points
import proofs.«422544_j63032940036672_3_alg».proof.Proof.Gen.Kernel.Frame
import proofs.«422544_j63032940036672_3_alg».proof.Proof.Gen.KernelIdeal
import proofs.«422544_j63032940036672_3_alg».proof.Proof.Gen.KernelIdeal.Skeleton
import proofs.«422544_j63032940036672_3_alg».proof.Proof.Gen.KernelIdeal.Launch
import proofs.«422544_j63032940036672_3_alg».proof.Proof.Gen.KernelIdeal.Points
import proofs.«422544_j63032940036672_3_alg».proof.Proof.Gen.KernelIdeal.Frame
import proofs.«422544_j63032940036672_3_alg».proof.Proof.Gen.ReferenceIdeal
import proofs.«422544_j63032940036672_3_alg».proof.Proof.Gen.KernelIdeal.Value
import proofs.«422544_j63032940036672_3_alg».proof.Proof.Gen.ReferenceIdeal.Run
import proofs.«422544_j63032940036672_3_alg».proof.Proof.Gen.ReferenceIdeal.Read
import proofs.«422544_j63032940036672_3_alg».proof.Proof.Gen.Pre_finite_inputs
import proofs.«422544_j63032940036672_3_alg».proof.Proof.ArrayValue
import proofs.«422544_j63032940036672_3_alg».proof.Proof.RefRowForm
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the row form of the first argument weighted by the second: the kernel's
    by its sixteen blocks, the reference's by its one row sum; the arguments agree. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.RefRowForm.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
